-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16x4096 : Shape := ⟨3, ![1, 16, 4096]⟩
abbrev S11008x128x32 : Shape := ⟨3, ![11008, 128, 32]⟩
abbrev S11008x128 : Shape := ⟨2, ![11008, 128]⟩
abbrev S11008 : Shape := ⟨1, ![11008]⟩
abbrev S_ : Shape := ⟨0, ![]⟩

class Facts : Prop where
  bcast_S_S1x16x4096 : S_.BroadcastsInDim S1x16x4096 (![] : Fin 0 → Fin S1x16x4096.rank)
  reducesTo_S1x16x4096_S_d0_1_2 : S1x16x4096.ReducesTo [0, 1, 2] S_
  h_S_ : 0 < S_.numel
  bcast_S_S11008x128 : S_.BroadcastsInDim S11008x128 (![] : Fin 0 → Fin S11008x128.rank)
  reducesTo_S11008x128_S_d0_1 : S11008x128.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S1x16x4096 .f32) (main_arg1 : IVec S11008x128x32 32) (main_arg2 : FVec F S11008x128 .f32) (main_arg3 : FVec F S11008 .f32) : IVec S_ 1 :=
  let main_v0 : FVec F S1x16x4096 .f32 := Host.absf main_arg0
  let main_cst : FVec F S_ .f32 := constant S_ .f32 0x7F800000#32
  let main_v1 : FVec F S1x16x4096 .f32 := broadcastInDim S1x16x4096 ![] bcast_S_S1x16x4096 main_cst
  let main_v2 : IVec S1x16x4096 1 := cmpf .olt main_v0 main_v1
  let main_c : IVec S_ 1 := constantI S_ 1 1#1
  let main_v3 : IVec S_ 1 := (fun x v => Host.reduce IntOp.andi x v reducesTo_S1x16x4096_S_d0_1_2 h_S_) main_v2 main_c
  let main_v4 : FVec F S11008x128 .f32 := Host.absf main_arg2
  let main_cst_0 : FVec F S_ .f32 := constant S_ .f32 0x7F800000#32
  let main_v5 : FVec F S11008x128 .f32 := broadcastInDim S11008x128 ![] bcast_S_S11008x128 main_cst_0
  let main_v6 : IVec S11008x128 1 := cmpf .olt main_v4 main_v5
  let main_c_1 : IVec S_ 1 := constantI S_ 1 1#1
  let main_v7 : IVec S_ 1 := (fun x v => Host.reduce IntOp.andi x v reducesTo_S11008x128_S_d0_1 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S1x16x4096 : Shape := ⟨3, ![1, 16, 4096]⟩
abbrev S11008x128x32 : Shape := ⟨3, ![11008, 128, 32]⟩
abbrev S11008x128 : Shape := ⟨2, ![11008, 128]⟩
abbrev S11008 : Shape := ⟨1, ![11008]⟩
abbrev S11008x4096 : Shape := ⟨2, ![11008, 4096]⟩
abbrev S1x16x11008 : Shape := ⟨3, ![1, 16, 11008]⟩
abbrev S256x4096 : Shape := ⟨2, ![256, 4096]⟩
abbrev S256x128 : Shape := ⟨2, ![256, 128]⟩
abbrev S256 : Shape := ⟨1, ![256]⟩
abbrev S1x16x256 : Shape := ⟨3, ![1, 16, 256]⟩
abbrev S16x4096 : Shape := ⟨2, ![16, 4096]⟩
abbrev S256x128x1 : Shape := ⟨3, ![256, 128, 1]⟩
abbrev S256x128x32 : Shape := ⟨3, ![256, 128, 32]⟩
abbrev S16x256 : Shape := ⟨2, ![16, 256]⟩
abbrev S1x256 : Shape := ⟨2, ![1, 256]⟩

abbrev nBuf : Space → Nat
  | .hbm => 6
  | .vmem => 9
  | .smem => 0
  | _ => 0

abbrev bufTy : (tb : Table) → Fin (tcTables nBuf tb) → BufTy
  | .hbm, ⟨0, _⟩ => ⟨S1x16x4096, .f32⟩
  | .hbm, ⟨1, _⟩ => ⟨S11008x128x32, .i32⟩
  | .hbm, ⟨2, _⟩ => ⟨S11008x128, .f32⟩
  | .hbm, ⟨3, _⟩ => ⟨S11008, .f32⟩
  | .hbm, ⟨4, _⟩ => ⟨S11008x4096, .i32⟩
  | .hbm, ⟨5, _⟩ => ⟨S1x16x11008, .f32⟩
  | .local _ .vmem, ⟨0, _⟩ => ⟨S1x16x4096, .f32⟩
  | .local _ .vmem, ⟨1, _⟩ => ⟨S256x4096, .i32⟩
  | .local _ .vmem, ⟨2, _⟩ => ⟨S256x4096, .i32⟩
  | .local _ .vmem, ⟨3, _⟩ => ⟨S256x128, .f32⟩
  | .local _ .vmem, ⟨4, _⟩ => ⟨S256x128, .f32⟩
  | .local _ .vmem, ⟨5, _⟩ => ⟨S256, .f32⟩
  | .local _ .vmem, ⟨6, _⟩ => ⟨S256, .f32⟩
  | .local _ .vmem, ⟨7, _⟩ => ⟨S1x16x256, .f32⟩
  | .local _ .vmem, ⟨8, _⟩ => ⟨S1x16x256, .f32⟩
  | _, _ => ⟨S1x16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![43], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S1x16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S11008x128x32_S11008x4096 : S11008x128x32.ShapeCasts S11008x4096
  inb_S1x16x4096_S1x16x4096_0_0_0 : ∀ a, (![0, 0, 0] : Fin 3 → Nat) a + S1x16x4096.size a ≤ S1x16x4096.size a
  h_S1x16x4096 : 0 < S1x16x4096.numel
  shapeCasts_S1x16x4096_S16x4096 : S1x16x4096.ShapeCasts S16x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x128_S256x128_0_0 : ∀ a, (![0, 0] : Fin 2 → Nat) a + S256x128.size a ≤ S256x128.size a
  h_S256x128 : 0 < S256x128.numel
  shapeCasts_S256x128_S256x128x1 : S256x128.ShapeCasts S256x128x1
  shapeCasts_S256x128x1_S256x128x1 : S256x128x1.ShapeCasts S256x128x1
  broadcasts_S256x128x1_S256x128x32 : S256x128x1.Broadcasts S256x128x32
  shapeCasts_S256x128x32_S256x4096 : S256x128x32.ShapeCasts S256x4096
  inb_S256_S256_0 : ∀ a, (![0] : Fin 1 → Nat) a + S256.size a ≤ S256.size a
  h_S256 : 0 < S256.numel
  shapeCasts_S256_S1x256 : S256.ShapeCasts S1x256
  broadcasts_S1x256_S16x256 : S1x256.Broadcasts S16x256
  shapeCasts_S16x256_S1x16x256 : S16x256.ShapeCasts S1x16x256
  inb_S1x16x256_S1x16x256_0_0_0 : ∀ a, (![0, 0, 0] : Fin 3 → Nat) a + S1x16x256.size a ≤ S1x16x256.size a
  h_S1x16x256 : 0 < S1x16x256.numel
  dot_S16x4096_S256x4096_S16x256_1_1_0_0_n_n_wf : DotDims.WF S16x4096 S256x4096 S16x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x16x4096.size a ≤ S1x16x4096.size a
  hwx0_0 : ∀ i : grid0.Coords, EltTy.bits .f32 = 32 ∨ (Rect.block (s := S1x16x4096) S1x16x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S11008x128.size a
  hwx0_2 : ∀ i : grid0.Coords, EltTy.bits .f32 = 32 ∨ (Rect.block (s := S11008x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S11008.size a
  hwx0_3 : ∀ i : grid0.Coords, EltTy.bits .f32 = 32 ∨ (Rect.block (s := S11008) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x256.size a ≤ S1x16x11008.size a
  hwx0_4 : ∀ i : grid0.Coords, EltTy.bits .f32 = 32 ∨ (Rect.block (s := S1x16x11008) S1x16x256.size (cc0_transform_4 i) (hinb0_4 i)).WholeWords (EltTy.packing .f32)

variable [Facts₀]

def dot_S16x4096_S256x4096_S16x256_1_1_0_0_n_n : DotDims S16x4096 S256x4096 S16x256 where
  lhsContracting := [1]
  rhsContracting := [1]
  lhsNonContracting := [0]
  rhsNonContracting := [0]
  lhsBatch := []
  rhsBatch := []
  wf := dot_S16x4096_S256x4096_S16x256_1_1_0_0_n_n_wf

abbrev win0_0 : Pipeline.Window sig grid0 :=
  Pipeline.Window.ofSpec (Memref.whole main_arg0) S1x16x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x16x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x16x4096 : Shape := ⟨3, ![1, 16, 4096]⟩
abbrev S11008x128x32 : Shape := ⟨3, ![11008, 128, 32]⟩
abbrev S11008x128 : Shape := ⟨2, ![11008, 128]⟩
abbrev S11008 : Shape := ⟨1, ![11008]⟩
abbrev S11008x128x1 : Shape := ⟨3, ![11008, 128, 1]⟩
abbrev S_ : Shape := ⟨0, ![]⟩
abbrev S11008x4096 : Shape := ⟨2, ![11008, 4096]⟩
abbrev S1x16x11008 : Shape := ⟨3, ![1, 16, 11008]⟩
abbrev S1x1x11008 : Shape := ⟨3, ![1, 1, 11008]⟩

abbrev nBuf : Space → Nat
  | .hbm => 16
  | .vmem => 0
  | .smem => 0
  | _ => 0

abbrev bufTy : (tb : Table) → Fin (tcTables nBuf tb) → BufTy
  | .hbm, ⟨0, _⟩ => ⟨S1x16x4096, .f32⟩
  | .hbm, ⟨1, _⟩ => ⟨S11008x128x32, .i32⟩
  | .hbm, ⟨2, _⟩ => ⟨S11008x128, .f32⟩
  | .hbm, ⟨3, _⟩ => ⟨S11008, .f32⟩
  | .hbm, ⟨4, _⟩ => ⟨S11008x128x1, .f32⟩
  | .hbm, ⟨5, _⟩ => ⟨S11008x128x32, .f32⟩
  | .hbm, ⟨6, _⟩ => ⟨S_, .f32⟩
  | .hbm, ⟨7, _⟩ => ⟨S11008x128x32, .f32⟩
  | .hbm, ⟨8, _⟩ => ⟨S11008x128x32, .f32⟩
  | .hbm, ⟨9, _⟩ => ⟨S11008x128x32, .f32⟩
  | .hbm, ⟨10, _⟩ => ⟨S11008x128x32, .f32⟩
  | .hbm, ⟨11, _⟩ => ⟨S11008x4096, .f32⟩
  | .hbm, ⟨12, _⟩ => ⟨S1x16x11008, .f32⟩
  | .hbm, ⟨13, _⟩ => ⟨S1x1x11008, .f32⟩
  | .hbm, ⟨14, _⟩ => ⟨S1x16x11008, .f32⟩
  | .hbm, ⟨15, _⟩ => ⟨S1x16x11008, .f32⟩
  | _, _ => ⟨S1x16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S11008x128_S11008x128x1_0_1 : S11008x128.BroadcastsInDim S11008x128x1 (![0, 1] : Fin 2 → Fin S11008x128x1.rank)
  bcast_S_S11008x128x32 : S_.BroadcastsInDim S11008x128x32 (![] : Fin 0 → Fin S11008x128x32.rank)
  bcast_S11008x128x1_S11008x128x32_0_1_2 : S11008x128x1.BroadcastsInDim S11008x128x32 (![0, 1, 2] : Fin 3 → Fin S11008x128x32.rank)
  shapeCasts_S11008x128x32_S11008x4096 : S11008x128x32.ShapeCasts S11008x4096
  bcast_S11008_S1x1x11008_2 : S11008.BroadcastsInDim S1x1x11008 (![2] : Fin 1 → Fin S1x1x11008.rank)
  bcast_S1x1x11008_S1x16x11008_0_1_2 : S1x1x11008.BroadcastsInDim S1x16x11008 (![0, 1, 2] : Fin 3 → Fin S1x16x11008.rank)
  dot_S1x16x4096_S11008x4096_S1x16x11008_2_1_01_0_n_n_wf : DotDims.WF S1x16x4096 S11008x4096 S1x16x11008 [2] [1] [0, 1] [0] [] []

variable [Facts₀]

def dot_S1x16x4096_S11008x4096_S1x16x11008_2_1_01_0_n_n : DotDims S1x16x4096 S11008x4096 S1x16x11008 where
  lhsContracting := [2]
  rhsContracting := [1]
  lhsNonContracting := [0, 1]
  rhsNonContracting := [0]
  lhsBatch := []
  rhsBatch := []
  wf := dot_S1x16x4096_S11008x4096_S1x16x11008_2_1_01_0_n_n_wf

class Facts : Prop extends Facts₀ where

variable [Facts]
-- ==== Proof.Spec.lean ====
/-
  The function both programs compute, over the extended reals.

  A weight matrix of 11008 rows and 4096 columns is stored quantized: an integer code `q o a b` for row `o`, group `a`
  of 128 and position `b` of 32 inside the group (column `k = 32·a + b`), and one scale `sc o a` per row and group. The
  dequantized weight is `(q − 8) · sc` and the layer is `y s o = Σ_k x s k · weight o k + bias o`.

  `weightAt` is one weight; `rowDot` the sum along a row against a given way of reading the activation, the codes and the
  scales at a column; `layerAt` one entry of the result and `layer` the whole result indexed by the output array's index. The kernel computes 256 output rows at a
  time from a block of 256 rows of codes, scales and biases: `tileAt` is an entry of that block's value, written with the same
  `rowDot`.
-/
import Idealize.ShloMosaic.PureOps.Ideal
import Idealize.ShloMosaic.Lib.ValueIdx

noncomputable section

open scoped BigOperators

namespace Cert.Dequant

open Idealize.ShloMosaic Idealize.ShloMosaic.ValueIdx

/-- The zero point of the code, the float `8.0`, kept as its word: both programs carry the same word. -/
abbrev zeroPoint : EReal := Ideal.ofBits .f32 0x41000000#32

/-- Group of a column: `k / 32`. -/
abbrev grp (k : Fin 4096) : Fin 128 := ⟨k.val / 32, by have := k.isLt; omega⟩
/-- Position of a column inside its group: `k % 32`. -/
abbrev pos (k : Fin 4096) : Fin 32 := ⟨k.val % 32, Nat.mod_lt _ (by decide)⟩

/-- An integer code converted to a float is, over the extended reals, the integer it encodes read signed. -/
theorem code_toReal (code : BitVec 32) : FloatOps.sitofp (F := Ideal) .f32 code = ((code.toInt : ℝ) : EReal) := rfl

/-- One dequantized weight from its integer code and its group's scale: `(code − 8) · scale`. -/
abbrev weightAt (code : BitVec 32) (scale : EReal) : EReal := (((code.toInt : ℝ) : EReal) - zeroPoint) * scale

/-- The dot product of one activation row with one weight row, over the 4096 columns. -/
abbrev rowDot (act : Fin 4096 → EReal) (code : Fin 4096 → BitVec 32) (scale : Fin 4096 → EReal) : EReal :=
  ∑ k : Fin 4096, act k * weightAt (code k) (scale k)

/-- Output `(u, s, o)` of the layer: activation row `s` against weight row `o`, plus that row's bias. -/
def layerAt (x : FVec Ideal ⟨3, ![1, 16, 4096]⟩ .f32) (q : IVec ⟨3, ![11008, 128, 32]⟩ 32)
    (sc : FVec Ideal ⟨2, ![11008, 128]⟩ .f32) (bias : FVec Ideal ⟨1, ![11008]⟩ .f32)
    (u : Fin 1) (s : Fin 16) (o : Fin 11008) : EReal :=
  rowDot (fun k => x (ix3 u s k)) (fun k => q (ix3 o (grp k) (pos k))) (fun k => sc (ix2 o (grp k))) + bias (ix1 o)

/-- The layer as an array over the output's index. -/
def layer (x : FVec Ideal ⟨3, ![1, 16, 4096]⟩ .f32) (q : IVec ⟨3, ![11008, 128, 32]⟩ 32)
    (sc : FVec Ideal ⟨2, ![11008, 128]⟩ .f32) (bias : FVec Ideal ⟨1, ![11008]⟩ .f32) :
    (⟨3, ![1, 16, 11008]⟩ : Shape).Idx → EReal := fun i => layerAt x q sc bias (i 0) (i 1) (i 2)

/-- Entry `(u, s, p)` of one tile of 256 output rows, from the blocks the kernel body loads: the whole activation, 256
    rows of codes already laid out as 4096 columns, 256 rows of scales and 256 biases. -/
def tileAt (x : FVec Ideal ⟨3, ![1, 16, 4096]⟩ .f32) (q : IVec ⟨2, ![256, 4096]⟩ 32)
    (sc : FVec Ideal ⟨2, ![256, 128]⟩ .f32) (bias : FVec Ideal ⟨1, ![256]⟩ .f32)
    (u : Fin 1) (s : Fin 16) (p : Fin 256) : EReal :=
  rowDot (fun k => x (ix3 u s k)) (fun k => q (ix2 p k)) (fun k => sc (ix2 p (grp k))) + bias (ix1 p)

end Cert.Dequant

end
-- ==== Proof.Body.lean ====
/-
  One run of the kernel body computes one tile of the layer.

  The body loads the whole activation `[1, 16, 4096]`, 256 rows of codes `[256, 4096]`, their scales `[256, 128]` and their
  biases `[256]`, and stores `[1, 16, 256]`. Read at the stored index `(u, s, p)`:
  * the matrix product into a zero accumulator is `Σ_k A (s, k) · B (p, k)` over the 4096 columns, both operands
    contracted along their second axis;
  * its left operand `A (s, k)` is the activation at `(u, s, k)`: dropping the unit axis keeps the row-major position, and a
    change of float format is the identity on extended reals;
  * its right operand `B (p, k)` is the dequantized weight `(code (p, k) − 8) · scale (p, k / 32)`: the scales `[256, 128]` are
    viewed `[256, 128, 1]`, repeated 32 times along the new axis and flattened to `[256, 4096]`, so column `k` reads
    group `k / 32`;
  * the bias row `[256]` is viewed `[1, 256]` and repeated along the 16 rows.
-/
import proofs.«116117_j71262097375897_1_alg».proof.Proof.Gen.KernelIdeal.Skeleton
import proofs.«116117_j71262097375897_1_alg».proof.Proof.Spec
import Idealize.ShloMosaic.Lib.Pipeline.Value
import Idealize.ShloMosaic.Lib.ValueIdx
import Idealize.ShloMosaic.PureOps.Ideal.Laws

noncomputable section

open scoped BigOperators

namespace Cert.Dequant.Body

open Cert.KernelIdeal Cert.KernelIdeal.Gen Idealize.ShloMosaic Idealize.ShloMosaic.ValueIdx Cert.Dequant

/-! ## The matrix product at an index -/

/-- The left operand's row is the output's row … -/
theorem lhs_row (j : S16x256.Idx) (q : dot_S16x4096_S256x4096_S16x256_1_1_0_0_n_n.contr.Idx) :
    (dot_S16x4096_S256x4096_S16x256_1_1_0_0_n_n.lhsIdx j q 0).val = (j 0).val := by
  unfold DotDims.lhsIdx
  rw [dif_neg (show ¬(0 : Fin S16x4096.rank) ∈ dot_S16x4096_S256x4096_S16x256_1_1_0_0_n_n.lhsBatch by decide),
    dif_pos (show (0 : Fin S16x4096.rank) ∈ dot_S16x4096_S256x4096_S16x256_1_1_0_0_n_n.lhsNonContracting by decide)]
  rfl
/-- … and its column the contracted one. -/
theorem lhs_col (j : S16x256.Idx) (q : dot_S16x4096_S256x4096_S16x256_1_1_0_0_n_n.contr.Idx) :
    (dot_S16x4096_S256x4096_S16x256_1_1_0_0_n_n.lhsIdx j q 1).val = (q ⟨0, by decide⟩).val :=
  dot_S16x4096_S256x4096_S16x256_1_1_0_0_n_n.lhsIdx_val_of_single rfl j q
/-- The right operand's row is the output's column … -/
theorem rhs_row (j : S16x256.Idx) (q : dot_S16x4096_S256x4096_S16x256_1_1_0_0_n_n.contr.Idx) :
    (dot_S16x4096_S256x4096_S16x256_1_1_0_0_n_n.rhsIdx j q 0).val = (j 1).val := by
  unfold DotDims.rhsIdx
  rw [dif_neg (show ¬(0 : Fin S256x4096.rank) ∈ dot_S16x4096_S256x4096_S16x256_1_1_0_0_n_n.rhsBatch by decide),
    dif_pos (show (0 : Fin S256x4096.rank) ∈ dot_S16x4096_S256x4096_S16x256_1_1_0_0_n_n.rhsNonContracting by decide)]
  rfl
/-- … and its column the contracted one. -/
theorem rhs_col (j : S16x256.Idx) (q : dot_S16x4096_S256x4096_S16x256_1_1_0_0_n_n.contr.Idx) :
    (dot_S16x4096_S256x4096_S16x256_1_1_0_0_n_n.rhsIdx j q 1).val = (q ⟨0, by decide⟩).val :=
  dot_S16x4096_S256x4096_S16x256_1_1_0_0_n_n.rhsIdx_val_of_single rfl j q

/-- The product of `A : [16, 4096]` and `B : [256, 4096]` along their columns, into zero, at `(s, p)`. -/
theorem matmul_at (A : FVec Ideal S16x4096 .bf16) (B : FVec Ideal S256x4096 .bf16) (s : Fin 16) (p : Fin 256) :
    matmul dot_S16x4096_S256x4096_S16x256_1_1_0_0_n_n none A B (constant S16x256 .f32 0x00000000#32) (ix2 s p)
      = ∑ k : Fin 4096, A (ix2 s k) * B (ix2 p k) := by
  simp only [matmul]
  rw [Ideal.matmul_constant_zero_apply,
    ← Equiv.sum_comp (contrEquiv1 dot_S16x4096_S256x4096_S16x256_1_1_0_0_n_n 4096 rfl rfl).symm]
  refine Finset.sum_congr rfl fun k _ => ?_
  have hk := contrEquiv1_symm_val dot_S16x4096_S256x4096_S16x256_1_1_0_0_n_n 4096 rfl rfl k
  have el : dot_S16x4096_S256x4096_S16x256_1_1_0_0_n_n.lhsIdx (ix2 s p)
      ((contrEquiv1 dot_S16x4096_S256x4096_S16x256_1_1_0_0_n_n 4096 rfl rfl).symm k) = ix2 s k :=
    funext fun a => Fin.ext (by
      match a with
      | ⟨0, _⟩ => exact lhs_row _ _
      | ⟨1, _⟩ => exact (lhs_col _ _).trans hk)
  have er : dot_S16x4096_S256x4096_S16x256_1_1_0_0_n_n.rhsIdx (ix2 s p)
      ((contrEquiv1 dot_S16x4096_S256x4096_S16x256_1_1_0_0_n_n 4096 rfl rfl).symm k) = ix2 p k :=
    funext fun a => Fin.ext (by
      match a with
      | ⟨0, _⟩ => exact rhs_row _ _
      | ⟨1, _⟩ => exact (rhs_col _ _).trans hk)
  rw [el, er]

/-! ## The operands and the bias at an index -/

/-- The left operand at `(s, k)` is the activation at `(u, s, k)`. -/
theorem act_at (x : Vec Ideal S1x16x4096 .f32) (u : Fin 1) (s : Fin 16) (k : Fin 4096) :
    (truncf (F := Ideal) .bf16 (shapeCast S16x4096 x shapeCasts_S1x16x4096_S16x4096) bitsLt_bf16_f32 (ix2 s k) : EReal)
      = x (ix3 u s k) := by
  show shapeCast S16x4096 x shapeCasts_S1x16x4096_S16x4096 (ix2 s k) = x (ix3 u s k)
  refine shapeCast_apply x _ (ix2 s k) (ix3 u s k) ?_
  rw [Shape.rowMajor_val_three, Shape.rowMajor_val_two]
  show (u.val * 16 + s.val) * 4096 + k.val = s.val * 4096 + k.val
  have := u.isLt; omega

/-- The scales repeated along each group, at `(p, k)`, are the scale of row `p` and group `k / 32`. -/
theorem scale_at (sc : Vec Ideal S256x128 .f32) (p : Fin 256) (k : Fin 4096) :
    shapeCast S256x4096
      (broadcastTo S256x128x32
        (shapeCast S256x128x1 (shapeCast S256x128x1 sc shapeCasts_S256x128_S256x128x1) shapeCasts_S256x128x1_S256x128x1)
        broadcasts_S256x128x1_S256x128x32)
      shapeCasts_S256x128x32_S256x4096 (ix2 p k) = sc (ix2 p (grp k)) := by
  rw [shapeCast_self]
  refine (shapeCast_apply _ _ (ix2 p k) (ix3 p (grp k) (pos k)) ?_).trans ?_
  · rw [Shape.rowMajor_val_three, Shape.rowMajor_val_two]
    show (p.val * 128 + k.val / 32) * 32 + k.val % 32 = p.val * 4096 + k.val
    omega
  refine (broadcastTo_apply _ _ (ix3 p (grp k) (pos k)) (ix3 p (grp k) (0 : Fin 1)) (fun a => ?_)).trans ?_
  · match a with
    | ⟨0, _⟩ => show p.val = if (256 : Nat) = 1 then 0 else p.val; rw [if_neg (by decide)]
    | ⟨1, _⟩ => show k.val / 32 = if (128 : Nat) = 1 then 0 else k.val / 32; rw [if_neg (by decide)]
    | ⟨2, _⟩ => show 0 = if (1 : Nat) = 1 then 0 else k.val % 32; rw [if_pos rfl]
  exact shapeCast_apply sc _ (ix3 p (grp k) (0 : Fin 1)) (ix2 p (grp k)) (by
    rw [Shape.rowMajor_val_three, Shape.rowMajor_val_two]
    show p.val * 128 + k.val / 32 = (p.val * 128 + k.val / 32) * 1 + 0
    omega)

/-- The right operand at `(p, k)` is the dequantized weight of row `p`, column `k`. -/
theorem weight_at (q : Vec Ideal S256x4096 .i32) (sc : Vec Ideal S256x128 .f32) (p : Fin 256) (k : Fin 4096) :
    truncf .bf16
      (mulf
        (subf (sitofp .f32 (shapeCast S256x4096 q shapeCasts_S256x4096_S256x4096))
          (broadcast S256x4096 (FloatOps.ofBits (F := Ideal) .f32 0x41000000#32)))
        (shapeCast S256x4096
          (broadcastTo S256x128x32
            (shapeCast S256x128x1 (shapeCast S256x128x1 sc shapeCasts_S256x128_S256x128x1) shapeCasts_S256x128x1_S256x128x1)
            broadcasts_S256x128x1_S256x128x32)
          shapeCasts_S256x128x32_S256x4096))
      bitsLt_bf16_f32 (ix2 p k) = weightAt (q (ix2 p k)) (sc (ix2 p (grp k))) := by
  rw [truncf_apply, mulf_apply, scale_at, subf_apply, sitofp_apply, shapeCast_self, broadcast_apply, code_toReal,
    Ideal.ofBits_def]

/-- The bias row repeated along the 16 rows, at `(s, p)`, is the bias of row `p`. -/
theorem bias_at (b : Vec Ideal S256 .f32) (s : Fin 16) (p : Fin 256) :
    broadcastTo S16x256 (shapeCast S1x256 b shapeCasts_S256_S1x256) broadcasts_S1x256_S16x256 (ix2 s p) = b (ix1 p) := by
  refine (broadcastTo_apply _ _ (ix2 s p) (ix2 (0 : Fin 1) p) (fun a => ?_)).trans ?_
  · match a with
    | ⟨0, _⟩ => show 0 = if (1 : Nat) = 1 then 0 else s.val; rw [if_pos rfl]
    | ⟨1, _⟩ => show p.val = if (256 : Nat) = 1 then 0 else p.val; rw [if_neg (by decide)]
  exact shapeCast_apply b _ (ix2 (0 : Fin 1) p) (ix1 p) (by
    rw [Shape.rowMajor_val_one, Shape.rowMajor_val_two]
    show p.val = 0 * 256 + p.val
    omega)

/-! ## The body's stored value -/

/-- What the body stores, at `(u, s, p)`, is that entry of the tile of its loaded blocks. -/
theorem stored_at (x : Vec Ideal S1x16x4096 .f32) (q : Vec Ideal S256x4096 .i32) (sc : Vec Ideal S256x128 .f32)
    (b : Vec Ideal S256 .f32) (u : Fin 1) (s : Fin 16) (p : Fin 256) :
    k0_pay1 (F := Ideal) x q sc b (ix3 u s p) = tileAt x q sc b u s p := by
  unfold k0_pay1
  refine (shapeCast_apply _ _ (ix3 u s p) (ix2 s p) ?_).trans ?_
  · rw [Shape.rowMajor_val_three, Shape.rowMajor_val_two]
    show s.val * 256 + p.val = (u.val * 16 + s.val) * 256 + p.val
    have := u.isLt; omega
  rw [addf_apply, matmul_at, bias_at]
  unfold tileAt
  refine congrArg (· + b (ix1 p)) (Finset.sum_congr rfl fun k _ => ?_)
  rw [act_at x u s k, weight_at]

end Cert.Dequant.Body

end
-- ==== Proof.KernelSide.lean ====
/-
  The kernel's output array after the run is `Cert.Dequant.layer` of its arguments.

  The grid has 43 points. At point `t` the pipeline hands the body the whole activation, rows `256·t … 256·t + 255` of the
  flattened codes, of the scales and of the biases, and writes the body's result back as columns `256·t … 256·t + 255` of the
  output. The codes the region finds are the host's flattening of the three-axis argument: flat column `k` of row `o` is
  `(o, k / 32, k % 32)`. So what point `t` writes back is block `t` of the layer, index by index; the 43 blocks cover the
  11008 output columns (column `o` lies in block `o / 256`); hence the whole array is the layer.
-/
import proofs.«116117_j71262097375897_1_alg».proof.Proof.Gen.KernelIdeal.Value
import proofs.«116117_j71262097375897_1_alg».proof.Proof.Body
import Idealize.ShloMosaic.Lib.StableHlo.Run

noncomputable section

open scoped BigOperators

namespace Cert.Dequant.Kernel

open Cert.KernelIdeal Cert.KernelIdeal.Gen Idealize.ShloMosaic Idealize.ShloMosaic.TcCoe Idealize.SL.Sem
open Idealize.ShloMosaic.ValueIdx Cert.Dequant
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The grid has 43 points. -/
theorem point_lt (t : Fin cfg0.N) : t.val < 43 := lt_of_lt_of_eq t.isLt N_0

/-- The output row that entry `p` of point `t`'s tile belongs to: `256·t + p`. -/
abbrev rowOf (t : Fin cfg0.N) (p : Fin 256) : Fin 11008 :=
  ⟨t.val * 256 + p.val, by have := point_lt t; have := p.isLt; omega⟩

/-- The printed index maps over the grid: the activation's block never moves; the codes', scales' and biases' blocks
    move along the rows with the point, and the output's along its last axis. -/
theorem block_index : ∀ t : Fin cfg0.N,
    win0_0.index t (0 : Fin 3) = 0 ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 1) = t.val
    ∧ win0_4.index t (0 : Fin 3) = 0 ∧ win0_4.index t (1 : Fin 3) = 0 ∧ win0_4.index t (2 : Fin 3) = t.val :=
  (by decide +kernel : ∀ t : Fin grid0.N, _)

/-! ## The arrays as the region finds them, and the blocks the body loads -/

/-- The flattened codes are the host's reshape of the three-axis argument. -/
theorem codes_flat (c : Dev nD) :
    (V m c main_v0 : S11008x4096.Idx → BitVec 32)
      = shapeCast S11008x4096 (m ((c : Thread nD τ).loc main_arg1) : S11008x128x32.Idx → BitVec 32)
          shapeCasts_S11008x128x32_S11008x4096 := by
  dsimp only [Gen.V, Gen.hostOps0]; after_results; rfl

/-- The blocks at point `t`, at their literal types. -/
abbrev actBlk (c : Dev nD) (t : Fin cfg0.N) : Vec Ideal S1x16x4096 .f32 := iblk m c 0 t
abbrev codeBlk (c : Dev nD) (t : Fin cfg0.N) : Vec Ideal S256x4096 .i32 := iblk m c 1 t
abbrev scaleBlk (c : Dev nD) (t : Fin cfg0.N) : Vec Ideal S256x128 .f32 := iblk m c 2 t
abbrev biasBlk (c : Dev nD) (t : Fin cfg0.N) : Vec Ideal S256 .f32 := iblk m c 3 t

/-- The activation's block is the whole activation. -/
theorem actBlk_at (c : Dev nD) (t : Fin cfg0.N) (u : Fin 1) (s : Fin 16) (k : Fin 4096) :
    actBlk m c t (ix3 u s k) = (m ((c : Thread nD τ).loc main_arg0) : S1x16x4096.Idx → EReal) (ix3 u s k) := by
  obtain ⟨e0, e1, e2, -⟩ := block_index t
  show V m c main_arg0 (((cfg0.win 0).blk t).view.emb (ix3 u s k)) = _
  rw [V_main_arg0]
  refine congrArg _ (funext fun a => Fin.ext ?_)
  match a with
  | ⟨0, _⟩ => show win0_0.index t (0 : Fin 3) * 1 + 1 * u.val = u.val; omega
  | ⟨1, _⟩ => show win0_0.index t (1 : Fin 3) * 16 + 1 * s.val = s.val; omega
  | ⟨2, _⟩ => show win0_0.index t (2 : Fin 3) * 4096 + 1 * k.val = k.val; omega

/-- Entry `(p, k)` of the codes' block is the code of row `256·t + p`, group `k / 32`, position `k % 32`. -/
theorem codeBlk_at (c : Dev nD) (t : Fin cfg0.N) (p : Fin 256) (k : Fin 4096) :
    codeBlk m c t (ix2 p k)
      = (m ((c : Thread nD τ).loc main_arg1) : S11008x128x32.Idx → BitVec 32) (ix3 (rowOf t p) (grp k) (pos k)) := by
  obtain ⟨-, -, -, e0, e1, -⟩ := block_index t
  show V m c main_v0 (((cfg0.win 1).blk t).view.emb (ix2 p k)) = _
  rw [codes_flat]
  refine shapeCast_apply _ _ _ (ix3 (rowOf t p) (grp k) (pos k)) ?_
  rw [Shape.rowMajor_val_three, Shape.rowMajor_val_two]
  show ((t.val * 256 + p.val) * 128 + k.val / 32) * 32 + k.val % 32
    = (win0_1.index t (0 : Fin 2) * 256 + 1 * p.val) * 4096 + (win0_1.index t (1 : Fin 2) * 4096 + 1 * k.val)
  omega

/-- Entry `(p, a)` of the scales' block is the scale of row `256·t + p`, group `a`. -/
theorem scaleBlk_at (c : Dev nD) (t : Fin cfg0.N) (p : Fin 256) (a : Fin 128) :
    scaleBlk m c t (ix2 p a) = (m ((c : Thread nD τ).loc main_arg2) : S11008x128.Idx → EReal) (ix2 (rowOf t p) a) := by
  obtain ⟨-, -, -, -, -, e0, e1, -⟩ := block_index t
  show V m c main_arg2 (((cfg0.win 2).blk t).view.emb (ix2 p a)) = _
  rw [V_main_arg2]
  refine congrArg _ (funext fun b => Fin.ext ?_)
  match b with
  | ⟨0, _⟩ => show win0_2.index t (0 : Fin 2) * 256 + 1 * p.val = t.val * 256 + p.val; omega
  | ⟨1, _⟩ => show win0_2.index t (1 : Fin 2) * 128 + 1 * a.val = a.val; omega

/-- Entry `p` of the biases' block is the bias of row `256·t + p`. -/
theorem biasBlk_at (c : Dev nD) (t : Fin cfg0.N) (p : Fin 256) :
    biasBlk m c t (ix1 p) = (m ((c : Thread nD τ).loc main_arg3) : S11008.Idx → EReal) (ix1 (rowOf t p)) := by
  obtain ⟨-, -, -, -, -, -, -, e0, -⟩ := block_index t
  show V m c main_arg3 (((cfg0.win 3).blk t).view.emb (ix1 p)) = _
  rw [V_main_arg3]
  refine congrArg _ (funext fun b => Fin.ext ?_)
  match b with
  | ⟨0, _⟩ => show win0_3.index t (0 : Fin 1) * 256 + 1 * p.val = t.val * 256 + p.val; omega

/-- Entry `(u, s, p)` of the output's block at point `t` is the array's `(u, s, 256·t + p)`. -/
theorem outBlk_emb (t : Fin cfg0.N) (u : Fin 1) (s : Fin 16) (p : Fin 256) :
    ((cfg0.win 4).blk t).view.emb (ix3 u s p) = (ix3 u s (rowOf t p) : S1x16x11008.Idx) := by
  obtain ⟨-, -, -, -, -, -, -, -, e0, e1, e2⟩ := block_index t
  refine funext fun a => Fin.ext ?_
  match a with
  | ⟨0, _⟩ => show win0_4.index t (0 : Fin 3) * 1 + 1 * u.val = u.val; omega
  | ⟨1, _⟩ => show win0_4.index t (1 : Fin 3) * 16 + 1 * s.val = s.val; omega
  | ⟨2, _⟩ => show win0_4.index t (2 : Fin 3) * 256 + 1 * p.val = t.val * 256 + p.val; omega

/-! ## What a point writes back, the cover, the whole array -/

/-- The layer of the four argument arrays as launched, on core `c`. -/
abbrev result (c : Dev nD) : S1x16x11008.Idx → EReal :=
  layer (m ((c : Thread nD τ).loc main_arg0)) (m ((c : Thread nD τ).loc main_arg1))
    (m ((c : Thread nD τ).loc main_arg2)) (m ((c : Thread nD τ).loc main_arg3))

/-- What point `t` writes back is block `t` of the layer. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero zeros3]
  simp only [View.ld_unit_zero (S := S1x16x4096) zeros3, View.ld_unit_zero (S := S256x4096) zeros2,
    View.ld_unit_zero (S := S256x128) zeros2, View.ld_unit_zero (S := S256) zeros1]
  funext j
  obtain ⟨u, s, p, rfl⟩ : ∃ (u : Fin 1) (s : Fin 16) (p : Fin 256), j = ix3 u s p := ⟨j 0, j 1, j 2, eq_ix3 j⟩
  show k0_pay1 (actBlk m c t) (codeBlk m c t) (scaleBlk m c t) (biasBlk m c t) (ix3 u s p)
    = result m c (((cfg0.win 4).blk t).view.emb (ix3 u s p))
  rw [outBlk_emb, Body.stored_at]
  show tileAt (actBlk m c t) (codeBlk m c t) (scaleBlk m c t) (biasBlk m c t) u s p
    = layerAt _ _ _ _ u s (rowOf t p)
  unfold tileAt layerAt
  rw [biasBlk_at]
  refine congrArg (· + _) (Finset.sum_congr rfl fun k _ => ?_)
  beta_reduce
  rw [actBlk_at, codeBlk_at, scaleBlk_at]

/-- An index of the output array is in point `t`'s block iff each coordinate is in the block's range on its axis. -/
theorem mem_outBlk (t : Fin cfg0.N) (i : S1x16x11008.Idx) :
    i ∈ ((cfg0.win 4).blk t).view.set ↔ ∀ a : Fin 3, win0_4.index t a * S1x16x256.size a ≤ (i a).val
      ∧ (i a).val < win0_4.index t a * S1x16x256.size a + S1x16x256.size a := by
  show i ∈ ((View.whole main_v1).slice (win0_4.rect t)).set ↔ _
  rw [View.set_slice_whole, Rect.mem_set_unit]
  exact Iff.rfl

/-- Every output index lies in the block of the point `column / 256`, which writes back. -/
theorem covered (i : S1x16x11008.Idx) :
    ∃ t : Fin cfg0.N, (cfg0.win 4).flush t = true ∧ i ∈ ((cfg0.win 4).blk t).view.set := by
  have h0 : (i 0).val < 1 := (i 0).isLt
  have h1 : (i 1).val < 16 := (i 1).isLt
  have h2 : (i 2).val < 11008 := (i 2).isLt
  have ht : (i 2).val / 256 < cfg0.N := lt_of_lt_of_eq (by omega : (i 2).val / 256 < 43) N_0.symm
  refine ⟨⟨(i 2).val / 256, ht⟩, flush0_4 _, ?_⟩
  rw [mem_outBlk]
  obtain ⟨-, -, -, -, -, -, -, -, e0, e1, e2⟩ := block_index ⟨(i 2).val / 256, ht⟩
  have e2' : win0_4.index ⟨(i 2).val / 256, ht⟩ (2 : Fin 3) = (i 2).val / 256 := e2
  intro a
  match a with
  | ⟨0, _⟩ =>
    show win0_4.index _ (0 : Fin 3) * 1 ≤ (i 0).val ∧ (i 0).val < win0_4.index _ (0 : Fin 3) * 1 + 1
    omega
  | ⟨1, _⟩ =>
    show win0_4.index _ (1 : Fin 3) * 16 ≤ (i 1).val ∧ (i 1).val < win0_4.index _ (1 : Fin 3) * 16 + 16
    omega
  | ⟨2, _⟩ =>
    show win0_4.index _ (2 : Fin 3) * 256 ≤ (i 2).val ∧ (i 2).val < win0_4.index _ (2 : Fin 3) * 256 + 256
    omega

/-- The output array after the run is the layer of the arguments. -/
theorem final (c : Dev nD) : (dats m 0 c).arrAt 4 cfg0.N = result m c :=
  (dats m 0 c).arrAt_eq_of_cover 4 (result m c) (fun t _ => flushed_eq m c t) covered

/-- The kernel's run: every weakly fair execution terminates with the output at the layer of the arguments, the
    arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.KernelIdeal.Value.run_blocks m ρ)

end Cert.Dequant.Kernel

end
-- ==== Proof.RefSide.lean ====
/-
  The reference computes `Cert.Dequant.layer`.

  Its program scales the codes group by group in the three-axis layout `[row, group, position]`, flattens the last two axes
  to the 4096 columns, contracts the columns against the activation and adds the bias along the rows. Read at an output
  index `(u, s, o)` and a column `k`: the flattened weight's index `(o, k)` is position `o·4096 + k` of the three-axis array,
  that is row `o`, group `k / 32`, position `k % 32`; the scale is read at `(o, k / 32)`. The reference multiplies scale by
  shifted code, the specification shifted code by scale: the product of extended reals commutes.
-/
import proofs.«116117_j71262097375897_1_alg».proof.Proof.Gen.ReferenceIdeal.Read
import proofs.«116117_j71262097375897_1_alg».proof.Proof.Spec

noncomputable section

open scoped BigOperators

namespace Cert.Dequant.Reference

open Cert.ReferenceIdeal Cert.ReferenceIdeal.Read Idealize.ShloMosaic Idealize.ShloMosaic.ValueIdx Cert.Dequant

variable (u : Fin 1) (s : Fin 16) (o : Fin 11008) (k : Fin 4096)

/-- The activation is read at `(u, s, k)`. -/
theorem act_idx : lidx_main_v7 (ix3 u s o) k = ix3 u s k :=
  funext fun a => Fin.ext (by match a with | ⟨0, _⟩ => rfl | ⟨1, _⟩ => rfl | ⟨2, _⟩ => rfl)

/-- Column `k` of weight row `o` is the code at row `o`, group `k / 32`, position `k % 32`. -/
theorem code_idx : idx_main_v6 (ridx_main_v7 (ix3 u s o) k) = ix3 o (grp k) (pos k) :=
  funext fun a => Fin.ext (by
    have hk : k.val < 4096 := k.isLt
    have ho : o.val < 11008 := o.isLt
    match a with
    | ⟨0, _⟩ => show (o.val * 4096 + k.val) / 4096 = o.val; omega
    | ⟨1, _⟩ => show (o.val * 4096 + k.val) / 32 % 128 = k.val / 32; omega
    | ⟨2, _⟩ => show (o.val * 4096 + k.val) % 32 = k.val % 32; omega)

/-- Its scale is the one of row `o` and group `k / 32`. -/
theorem scale_idx : idx_main_v0 (idx_main_v4 (ix3 o (grp k) (pos k))) = ix2 o (grp k) :=
  funext fun a => Fin.ext (by match a with | ⟨0, _⟩ => rfl | ⟨1, _⟩ => rfl)

/-- The bias is read at the output row. -/
theorem bias_idx : idx_main_v8 (idx_main_v9 (ix3 u s o)) = ix1 o :=
  funext fun a => Fin.ext (by match a with | ⟨0, _⟩ => rfl)

/-- The reference's result, as the last stage of its run, is the layer of its four arguments. -/
theorem result_eq (x : FVec Ideal S1x16x4096 .f32) (q : IVec S11008x128x32 32) (sc : FVec Ideal S11008x128 .f32)
    (bias : FVec Ideal S11008 .f32) : val_main_v10 (F := Ideal) x q sc bias = layer x q sc bias := by
  funext i
  obtain ⟨u, s, o, rfl⟩ : ∃ (u : Fin 1) (s : Fin 16) (o : Fin 11008), i = ix3 u s o := ⟨i 0, i 1, i 2, eq_ix3 i⟩
  show _ = layerAt x q sc bias u s o
  rw [val_main_v10_apply, val_main_v7_apply, val_main_v9_apply, val_main_v8_apply, bias_idx, Ideal.addf_def]
  unfold layerAt
  refine congrArg (· + bias (ix1 o)) (Finset.sum_congr rfl fun k _ => ?_)
  rw [act_idx, val_main_v6_apply, code_idx, val_main_v5_apply, val_main_v4_apply, val_main_v0_apply, scale_idx,
    val_main_v3_apply, val_main_v1_apply, val_main_v2_apply, val_main_cst_apply, Ideal.mulf_def, Ideal.subf_def,
    Ideal.ofBits_def, code_toReal]
  exact congrArg _ (mul_comm _ _)

end Cert.Dequant.Reference

end
-- ==== Proof.lean ====
/-
  A linear layer with 4-bit block-quantized weights: the kernel against its reference, over the extended reals.

  The weight matrix has 11008 rows and 4096 columns. It is stored as integer codes `q [11008, 128, 32]` — row, group of
  32 columns, position in the group — with one scale per row and group, `sc [11008, 128]`; the weight at row `o` and column
  `k` is `(q o (k / 32) (k % 32) − 8) · sc o (k / 32)`. Both programs compute
  `y u s o = Σ_k x u s k · weight o k + bias o` over `x [1, 16, 4096]` (`Cert.Dequant.layer`, Proof/Spec.lean).

  The reference scales the codes in the three-axis layout, flattens them, contracts and adds the bias
  (Proof/RefSide.lean: its generated run read stage by stage). The kernel first flattens the codes on the host, then on a
  grid of 43 points dequantizes 256 rows at a time and multiplies them with the whole activation on the matrix unit
  (Proof/Body.lean: the body's stored value at an index; Proof/KernelSide.lean: the 43 blocks written back are the layer).
  The two differ in the order of the two factors of a weight, which the product of extended reals does not see, in where
  the flattening happens, and in the kernel's changes of float format, which are the identity on extended reals. No sum
  is regrouped and no factor moved across a sum, so the finiteness of the inputs is not used.

  The three frames are the generated ones: the kernel's at both instances, and the reference's run with its result dropped.
  The idealization rewrote nothing, so `preserves` is `True`.
-/
import proofs.«116117_j71262097375897_1_alg».proof.Defs
import proofs.«116117_j71262097375897_1_alg».proof.Proof.Gen.Kernel
import proofs.«116117_j71262097375897_1_alg».proof.Proof.Gen.Kernel.Skeleton
import proofs.«116117_j71262097375897_1_alg».proof.Proof.Gen.Kernel.Launch
import proofs.«116117_j71262097375897_1_alg».proof.Proof.Gen.Kernel.Points
import proofs.«116117_j71262097375897_1_alg».proof.Proof.Gen.Kernel.Frame
import proofs.«116117_j71262097375897_1_alg».proof.Proof.Gen.KernelIdeal
import proofs.«116117_j71262097375897_1_alg».proof.Proof.Gen.KernelIdeal.Skeleton
import proofs.«116117_j71262097375897_1_alg».proof.Proof.Gen.KernelIdeal.Launch
import proofs.«116117_j71262097375897_1_alg».proof.Proof.Gen.KernelIdeal.Points
import proofs.«116117_j71262097375897_1_alg».proof.Proof.Gen.KernelIdeal.Frame
import proofs.«116117_j71262097375897_1_alg».proof.Proof.Gen.ReferenceIdeal
import proofs.«116117_j71262097375897_1_alg».proof.Proof.Gen.Pre_finite_inputs
import proofs.«116117_j71262097375897_1_alg».proof.Proof.Gen.KernelIdeal.Value
import proofs.«116117_j71262097375897_1_alg».proof.Proof.Gen.ReferenceIdeal.Run
import proofs.«116117_j71262097375897_1_alg».proof.Proof.Gen.ReferenceIdeal.Read
import proofs.«116117_j71262097375897_1_alg».proof.Proof.KernelSide
import proofs.«116117_j71262097375897_1_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the layer of those arguments. -/
theorem algebraic : Cert.algebraic_KernelIdeal_ReferenceIdeal := by
  intro m ρ m' ρ' _ hagree
  refine ⟨fun c => Cert.Dequant.Kernel.result m c, Cert.Dequant.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.Dequant.Reference.result_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
